-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128x2 : Shape := ⟨3, ![32768, 128, 2]⟩
abbrev S128 : Shape := ⟨1, ![128]⟩
abbrev S32768x2 : Shape := ⟨2, ![32768, 2]⟩
abbrev S4x64 : Shape := ⟨2, ![4, 64]⟩
abbrev S64 : Shape := ⟨1, ![64]⟩
abbrev S64x64 : Shape := ⟨2, ![64, 64]⟩
abbrev S_ : Shape := ⟨0, ![]⟩

class Facts : Prop where
  bcast_S_S32768x128x2 : S_.BroadcastsInDim S32768x128x2 (![] : Fin 0 → Fin S32768x128x2.rank)
  reducesTo_S32768x128x2_S_d0_1_2 : S32768x128x2.ReducesTo [0, 1, 2] S_
  h_S_ : 0 < S_.numel
  bcast_S_S128 : S_.BroadcastsInDim S128 (![] : Fin 0 → Fin S128.rank)
  reducesTo_S128_S_d0 : S128.ReducesTo [0] S_
  bcast_S_S32768x2 : S_.BroadcastsInDim S32768x2 (![] : Fin 0 → Fin S32768x2.rank)
  reducesTo_S32768x2_S_d0_1 : S32768x2.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S32768x128x2 .f32) (main_arg1 : FVec F S128 .f32) (main_arg2 : FVec F S32768x2 .f32) (main_arg3 : FVec F S4x64 .f32) (main_arg4 : FVec F S64 .f32) (main_arg5 : FVec F S64x64 .f32) (main_arg6 : FVec F S64 .f32) : IVec S_ 1 :=
  let main_v0 : FVec F S32768x128x2 .f32 := Host.absf main_arg0
  let main_cst : FVec F S_ .f32 := constant S_ .f32 0x7F800000#32
  let main_v1 : FVec F S32768x128x2 .f32 := broadcastInDim S32768x128x2 ![] bcast_S_S32768x128x2 main_cst
  let main_v2 : IVec S32768x128x2 1 := cmpf .olt main_v0 main_v1
  let main_c : IVec S_ 1 := constantI S_ 1 1#1
  let main_v3 : IVec S_ 1 := (fun x v => Host.reduce IntOp.andi x v reducesTo_S32768x128x2_S_d0_1_2 h_S_) main_v2 main_c
  let main_v4 : FVec F S128 .f32 := Host.absf main_arg1
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S32768x2 .f32 := Host.absf main_arg2
  let main_cst_2 : FVec F S_ .f32 := constant S_ .f32 0x7F800000#32
  let main_v10 : FVec F S32768x2 .f32 := broadcastInDim S32768x2 ![] bcast_S_S32768x2 main_cst_2
  let main_v11 : IVec S32768x2 1 := cmpf .olt main_v9 main_v10
  let main_c_3 : IVec S_ 1 := constantI S_ 1 1#1
  let main_v12 : IVec S_ 1 := (fun x v => Host.reduce IntOp.andi x v reducesTo_S32768x2_S_d0_1 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_arg4 main_arg5 main_arg6 main_v13 main_v16
-- ==== Kernel.lean ====
abbrev S32768x128x2 : Shape := ⟨3, ![32768, 128, 2]⟩
abbrev S128 : Shape := ⟨1, ![128]⟩
abbrev S32768x2 : Shape := ⟨2, ![32768, 2]⟩
abbrev S4x64 : Shape := ⟨2, ![4, 64]⟩
abbrev S64 : Shape := ⟨1, ![64]⟩
abbrev S64x64 : Shape := ⟨2, ![64, 64]⟩
abbrev S32768x64 : Shape := ⟨2, ![32768, 64]⟩
abbrev S128x128x2 : Shape := ⟨3, ![128, 128, 2]⟩
abbrev S128x2 : Shape := ⟨2, ![128, 2]⟩
abbrev S128x64 : Shape := ⟨2, ![128, 64]⟩
abbrev S128x1x2 : Shape := ⟨3, ![128, 1, 2]⟩
abbrev S128x128x1 : Shape := ⟨3, ![128, 128, 1]⟩
abbrev S128x128 : Shape := ⟨2, ![128, 128]⟩
abbrev S1x128 : Shape := ⟨2, ![1, 128]⟩
abbrev S1x64 : Shape := ⟨2, ![1, 64]⟩
abbrev S1x1x64 : Shape := ⟨3, ![1, 1, 64]⟩
abbrev S128x128x64 : Shape := ⟨3, ![128, 128, 64]⟩
abbrev S16384x64 : Shape := ⟨2, ![16384, 64]⟩

abbrev nBuf : Space → Nat
  | .hbm => 8
  | .vmem => 11
  | .smem => 0
  | _ => 0

abbrev bufTy : (tb : Table) → Fin (tcTables nBuf tb) → BufTy
  | .hbm, ⟨0, _⟩ => ⟨S32768x128x2, .f32⟩
  | .hbm, ⟨1, _⟩ => ⟨S128, .f32⟩
  | .hbm, ⟨2, _⟩ => ⟨S32768x2, .f32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S32768x64, .f32⟩
  | .local _ .vmem, ⟨0, _⟩ => ⟨S128x128x2, .f32⟩
  | .local _ .vmem, ⟨1, _⟩ => ⟨S128x128x2, .f32⟩
  | .local _ .vmem, ⟨2, _⟩ => ⟨S128x2, .f32⟩
  | .local _ .vmem, ⟨3, _⟩ => ⟨S128x2, .f32⟩
  | .local _ .vmem, ⟨4, _⟩ => ⟨S128, .f32⟩
  | .local _ .vmem, ⟨5, _⟩ => ⟨S4x64, .f32⟩
  | .local _ .vmem, ⟨6, _⟩ => ⟨S64, .f32⟩
  | .local _ .vmem, ⟨7, _⟩ => ⟨S64x64, .f32⟩
  | .local _ .vmem, ⟨8, _⟩ => ⟨S64, .f32⟩
  | .local _ .vmem, ⟨9, _⟩ => ⟨S128x64, .f32⟩
  | .local _ .vmem, ⟨10, _⟩ => ⟨S128x64, .f32⟩
  | _, _ => ⟨S32768x128x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S128x128x2_S128x128x2_0_0_0 : ∀ a, (![0, 0, 0] : Fin 3 → Nat) a + S128x128x2.size a ≤ S128x128x2.size a
  h_S128x128x2 : 0 < S128x128x2.numel
  inb_S128x2_S128x2_0_0 : ∀ a, (![0, 0] : Fin 2 → Nat) a + S128x2.size a ≤ S128x2.size a
  h_S128x2 : 0 < S128x2.numel
  shapeCasts_S128x2_S128x1x2 : S128x2.ShapeCasts S128x1x2
  broadcasts_S128x1x2_S128x128x2 : S128x1x2.Broadcasts S128x128x2
  slices_S128x128x2_o0_0_0_S128x128x1 : S128x128x2.Slices ![0, 0, 0] S128x128x1
  shapeCasts_S128x128x1_S128x128 : S128x128x1.ShapeCasts S128x128
  slices_S128x128x2_o0_0_1_S128x128x1 : S128x128x2.Slices ![0, 0, 1] S128x128x1
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S128x128 : S1x128.Broadcasts S128x128
  inb_S4x64_S4x64_0_0 : ∀ a, (![0, 0] : Fin 2 → Nat) a + S4x64.size a ≤ S4x64.size a
  h_S4x64 : 0 < S4x64.numel
  inb_S64_S64_0 : ∀ a, (![0] : Fin 1 → Nat) a + S64.size a ≤ S64.size a
  h_S64 : 0 < S64.numel
  shapeCasts_S128x128_S128x128x1 : S128x128.ShapeCasts S128x128x1
  slices_S4x64_o0_0_S1x64 : S4x64.Slices ![0, 0] S1x64
  shapeCasts_S1x64_S64 : S1x64.ShapeCasts S64
  shapeCasts_S64_S1x1x64 : S64.ShapeCasts S1x1x64
  broadcasts_S128x128x1_S128x128x64 : S128x128x1.Broadcasts S128x128x64
  broadcasts_S1x1x64_S128x128x64 : S1x1x64.Broadcasts S128x128x64
  slices_S4x64_o1_0_S1x64 : S4x64.Slices ![1, 0] S1x64
  slices_S4x64_o2_0_S1x64 : S4x64.Slices ![2, 0] S1x64
  slices_S4x64_o3_0_S1x64 : S4x64.Slices ![3, 0] S1x64
  shapeCasts_S128x128x64_S16384x64 : S128x128x64.ShapeCasts S16384x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64_S1x64 : S64.ShapeCasts S1x64
  broadcasts_S1x64_S16384x64 : S1x64.Broadcasts S16384x64
  shapeCasts_S16384x64_S128x128x64 : S16384x64.ShapeCasts S128x128x64
  reduces_S128x128x64_S128x64 : S128x128x64.Reduces [1] S128x64
  inb_S128x64_S128x64_0_0 : ∀ a, (![0, 0] : Fin 2 → Nat) a + S128x64.size a ≤ S128x64.size a
  h_S128x64 : 0 < S128x64.numel
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x2.size a ≤ S32768x128x2.size a
  hwx0_0 : ∀ i : grid0.Coords, EltTy.bits .f32 = 32 ∨ (Rect.block (s := S32768x128x2) S128x128x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S32768x2.size a
  hwx0_1 : ∀ i : grid0.Coords, EltTy.bits .f32 = 32 ∨ (Rect.block (s := S32768x2) S128x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S32768x64.size a
  hwx0_7 : ∀ i : grid0.Coords, EltTy.bits .f32 = 32 ∨ (Rect.block (s := S32768x64) S128x64.size (cc0_transform_7 i) (hinb0_7 i)).WholeWords (EltTy.packing .f32)

variable [Facts₀]

def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_arg0) S128x128x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S128x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x128x2 : Shape := ⟨3, ![32768, 128, 2]⟩
abbrev S128 : Shape := ⟨1, ![128]⟩
abbrev S32768x2 : Shape := ⟨2, ![32768, 2]⟩
abbrev S4x64 : Shape := ⟨2, ![4, 64]⟩
abbrev S64 : Shape := ⟨1, ![64]⟩
abbrev S64x64 : Shape := ⟨2, ![64, 64]⟩
abbrev S32768x1x2 : Shape := ⟨3, ![32768, 1, 2]⟩
abbrev S_ : Shape := ⟨0, ![]⟩
abbrev S32768x128 : Shape := ⟨2, ![32768, 128]⟩
abbrev S1x128 : Shape := ⟨2, ![1, 128]⟩
abbrev S32768x128x1 : Shape := ⟨3, ![32768, 128, 1]⟩
abbrev S32768x128x4 : Shape := ⟨3, ![32768, 128, 4]⟩
abbrev S32768x128x64 : Shape := ⟨3, ![32768, 128, 64]⟩
abbrev S1x1x64 : Shape := ⟨3, ![1, 1, 64]⟩
abbrev S32768x64 : Shape := ⟨2, ![32768, 64]⟩

abbrev nBuf : Space → Nat
  | .hbm => 41
  | .vmem => 0
  | .smem => 0
  | _ => 0

abbrev bufTy : (tb : Table) → Fin (tcTables nBuf tb) → BufTy
  | .hbm, ⟨0, _⟩ => ⟨S32768x128x2, .f32⟩
  | .hbm, ⟨1, _⟩ => ⟨S128, .f32⟩
  | .hbm, ⟨2, _⟩ => ⟨S32768x2, .f32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S32768x1x2, .f32⟩
  | .hbm, ⟨8, _⟩ => ⟨S32768x128x2, .f32⟩
  | .hbm, ⟨9, _⟩ => ⟨S32768x128x2, .f32⟩
  | .hbm, ⟨10, _⟩ => ⟨S32768x128x2, .f32⟩
  | .hbm, ⟨11, _⟩ => ⟨S_, .f32⟩
  | .hbm, ⟨12, _⟩ => ⟨S32768x128, .f32⟩
  | .hbm, ⟨13, _⟩ => ⟨S_, .f32⟩
  | .hbm, ⟨14, _⟩ => ⟨S32768x128, .f32⟩
  | .hbm, ⟨15, _⟩ => ⟨S32768x128, .f32⟩
  | .hbm, ⟨16, _⟩ => ⟨S32768x128, .f32⟩
  | .hbm, ⟨17, _⟩ => ⟨S_, .f32⟩
  | .hbm, ⟨18, _⟩ => ⟨S32768x128, .f32⟩
  | .hbm, ⟨19, _⟩ => ⟨S32768x128, .f32⟩
  | .hbm, ⟨20, _⟩ => ⟨S1x128, .f32⟩
  | .hbm, ⟨21, _⟩ => ⟨S32768x128, .f32⟩
  | .hbm, ⟨22, _⟩ => ⟨S32768x128x1, .f32⟩
  | .hbm, ⟨23, _⟩ => ⟨S32768x128x1, .f32⟩
  | .hbm, ⟨24, _⟩ => ⟨S32768x128x4, .f32⟩
  | .hbm, ⟨25, _⟩ => ⟨S32768x128x64, .f32⟩
  | .hbm, ⟨26, _⟩ => ⟨S1x1x64, .f32⟩
  | .hbm, ⟨27, _⟩ => ⟨S32768x128x64, .f32⟩
  | .hbm, ⟨28, _⟩ => ⟨S32768x128x64, .f32⟩
  | .hbm, ⟨29, _⟩ => ⟨S_, .f32⟩
  | .hbm, ⟨30, _⟩ => ⟨S32768x128x64, .f32⟩
  | .hbm, ⟨31, _⟩ => ⟨S32768x128x64, .f32⟩
  | .hbm, ⟨32, _⟩ => ⟨S32768x128x64, .f32⟩
  | .hbm, ⟨33, _⟩ => ⟨S1x1x64, .f32⟩
  | .hbm, ⟨34, _⟩ => ⟨S32768x128x64, .f32⟩
  | .hbm, ⟨35, _⟩ => ⟨S32768x128x64, .f32⟩
  | .hbm, ⟨36, _⟩ => ⟨S_, .f32⟩
  | .hbm, ⟨37, _⟩ => ⟨S32768x128x64, .f32⟩
  | .hbm, ⟨38, _⟩ => ⟨S32768x128x64, .f32⟩
  | .hbm, ⟨39, _⟩ => ⟨S_, .f32⟩
  | .hbm, ⟨40, _⟩ => ⟨S32768x64, .f32⟩
  | _, _ => ⟨S32768x128x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_cst : Ref sig .tc := ⟨.hbm, 36, rfl⟩
abbrev main_call1_v0 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  bcast_S32768x2_S32768x1x2_0_2 : S32768x2.BroadcastsInDim S32768x1x2 (![0, 2] : Fin 2 → Fin S32768x1x2.rank)
  bcast_S32768x1x2_S32768x128x2_0_1_2 : S32768x1x2.BroadcastsInDim S32768x128x2 (![0, 1, 2] : Fin 3 → Fin S32768x128x2.rank)
  reducesTo_S32768x128x2_S32768x128_d2 : S32768x128x2.ReducesTo [2] S32768x128
  h_S_ : 0 < S_.numel
  bcast_S_S32768x128 : S_.BroadcastsInDim S32768x128 (![] : Fin 0 → Fin S32768x128.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S32768x128_S32768x128x1_0_1 : S32768x128.BroadcastsInDim S32768x128x1 (![0, 1] : Fin 2 → Fin S32768x128x1.rank)
  concatenates_S32768x128x2_S32768x128x1_S32768x128x1_S32768x128x4_d2 : Shape.Concatenates [S32768x128x2, S32768x128x1, S32768x128x1] S32768x128x4 2
  bcast_S64_S1x1x64_2 : S64.BroadcastsInDim S1x1x64 (![2] : Fin 1 → Fin S1x1x64.rank)
  bcast_S1x1x64_S32768x128x64_0_1_2 : S1x1x64.BroadcastsInDim S32768x128x64 (![0, 1, 2] : Fin 3 → Fin S32768x128x64.rank)
  bcast_S_S32768x128x64 : S_.BroadcastsInDim S32768x128x64 (![] : Fin 0 → Fin S32768x128x64.rank)
  reducesTo_S32768x128x64_S32768x64_d1 : S32768x128x64.ReducesTo [1] S32768x64
  dot_S32768x128x4_S4x64_S32768x128x64_2_0_01_1_n_n_wf : DotDims.WF S32768x128x4 S4x64 S32768x128x64 [2] [0] [0, 1] [1] [] []
  dot_S32768x128x64_S64x64_S32768x128x64_2_0_01_1_n_n_wf : DotDims.WF S32768x128x64 S64x64 S32768x128x64 [2] [0] [0, 1] [1] [] []

variable [Facts₀]

def dot_S32768x128x4_S4x64_S32768x128x64_2_0_01_1_n_n : DotDims S32768x128x4 S4x64 S32768x128x64 where
  lhsContracting := [2]
  rhsContracting := [0]
  lhsNonContracting := [0, 1]
  rhsNonContracting := [1]
  lhsBatch := []
  rhsBatch := []
  wf := dot_S32768x128x4_S4x64_S32768x128x64_2_0_01_1_n_n_wf
def dot_S32768x128x64_S64x64_S32768x128x64_2_0_01_1_n_n : DotDims S32768x128x64 S64x64 S32768x128x64 where
  lhsContracting := [2]
  rhsContracting := [0]
  lhsNonContracting := [0, 1]
  rhsNonContracting := [1]
  lhsBatch := []
  rhsBatch := []
  wf := dot_S32768x128x64_S64x64_S32768x128x64_2_0_01_1_n_n_wf

class Facts : Prop extends Facts₀ where

variable [Facts]
-- ==== Proof.Spec.lean ====
/-
  The function both programs compute, stated over plain extended reals with no program in sight.

  For one asteroid (a row of the batch) and one output channel `k` the result is a sum over the 128 planets of a
  two-layer perceptron's message: with `dx, dy` the planet's offset from the asteroid and `mp` its mass,

    hid h  = max (dx·W1[0,h] + dy·W1[1,h] + rsqrt(dx² + dy² + ε)·W1[2,h] + mp·W1[3,h] + b1[h]) 0
    msg k  = max ((Σ_h hid h · W2[h,k]) + b2[k]) 0
    cell k = Σ_p msg_p k.

  Also here: the one analytic fact the comparison needs. On the extended reals `rsqrt z` and `1 / sqrt z` agree for
  every `z ≥ 0` (at `0` both are `+∞`, at `+∞` both are `0`); they differ only below zero. The softened squared distance
  `dx² + dy² + ε` is never below zero, whatever extended reals `dx, dy` are, because a square is nonnegative
  (`(±∞)² = +∞`) and `ε` is a positive dyadic rational.
-/
import Idealize.ShloMosaic.PureOps.Ideal
import Idealize.ShloMosaic.PureOps.Ideal.Laws
import Idealize.ShloMosaic.Lib.ValueIdx

noncomputable section

namespace Cert.Gravity

open Idealize.ShloMosaic Idealize.ShloMosaic.ValueIdx

/-- The softening term `ε` (the f32 nearest `1e-6`), as both programs spell it. -/
abbrev soft : EReal := Ideal.ofBits .f32 0x358637BD#32
/-- The zero both programs clamp against and start their sums from. -/
abbrev zeroW : EReal := Ideal.ofBits .f32 0x00000000#32
/-- The numerator `1.0` of the reference's reciprocal square root. -/
abbrev oneW : EReal := Ideal.ofBits .f32 0x3F800000#32

theorem oneW_eq : oneW = 1 := by
  simp [Ideal.ofBits, Ideal.ieee, -EReal.coe_mul]; norm_num

theorem soft_nonneg : 0 ≤ soft := by
  simp [Ideal.ofBits, Ideal.ieee, -EReal.coe_mul]

/-- A square is nonnegative on the extended reals: `(±∞)² = +∞`. -/
theorem mul_self_nonneg (a : EReal) : 0 ≤ a * a := by
  induction a using EReal.rec with
  | bot => simp
  | coe r => rw [← EReal.coe_mul]; exact EReal.coe_nonneg.mpr (_root_.mul_self_nonneg r)
  | top => simp

/-- The softened squared distance. -/
def dist2 (dx dy : EReal) : EReal := dx * dx + dy * dy + soft

theorem dist2_nonneg (dx dy : EReal) : 0 ≤ dist2 dx dy :=
  add_nonneg (add_nonneg (mul_self_nonneg dx) (mul_self_nonneg dy)) soft_nonneg

/-- `rsqrt z = 1 / sqrt z` for every extended real `z ≥ 0`, the corners `0` and `+∞` included. -/
theorem rsqrt_eq_div_sqrt (z : EReal) (hz : 0 ≤ z) : Ideal.rsqrt z = Ideal.div oneW (Ideal.sqrt z) := by
  rw [oneW_eq]
  induction z using EReal.rec with
  | bot => exact absurd hz (by simp)
  | top => simp [Ideal.div]
  | coe r =>
    have hr : 0 ≤ r := EReal.coe_nonneg.mp hz
    rw [Ideal.rsqrt_coe, Ideal.sqrt_coe, if_neg (not_lt.mpr hr), if_neg (not_lt.mpr hr)]
    by_cases h0 : r = 0
    · subst h0; simp [Ideal.div]
    · rw [if_neg h0]
      have hs : Real.sqrt r ≠ 0 := (Real.sqrt_ne_zero hr).mpr h0
      rw [Ideal.div_coe hs, one_mul, one_div]

/-- The first layer at hidden unit `h`, clamped at zero. -/
def hid (dx dy mp : EReal) (W1 : Fin 4 → Fin 64 → EReal) (b1 : Fin 64 → EReal) (h : Fin 64) : EReal :=
  max (dx * W1 0 h + dy * W1 1 h + Ideal.rsqrt (dist2 dx dy) * W1 2 h + mp * W1 3 h + b1 h) zeroW

/-- One planet's message at output channel `k`. -/
def msg (dx dy mp : EReal) (W1 : Fin 4 → Fin 64 → EReal) (b1 : Fin 64 → EReal) (W2 : Fin 64 → Fin 64 → EReal)
    (b2 : Fin 64 → EReal) (k : Fin 64) : EReal :=
  max ((∑ h : Fin 64, hid dx dy mp W1 b1 h * W2 h k) + b2 k) zeroW

/-- One asteroid's result at channel `k`: the messages of the 128 planets added. `P p d` is planet `p`'s coordinate `d`,
    `A d` the asteroid's. -/
def cell (P : Fin 128 → Fin 2 → EReal) (A : Fin 2 → EReal) (pm : Fin 128 → EReal) (W1 : Fin 4 → Fin 64 → EReal)
    (b1 : Fin 64 → EReal) (W2 : Fin 64 → Fin 64 → EReal) (b2 : Fin 64 → EReal) (k : Fin 64) : EReal :=
  ∑ p : Fin 128, msg (P p 0 - A 0) (P p 1 - A 1) (pm p) W1 b1 W2 b2 k

/-- Row `r`, channel `k` of the result for a batch of `n` asteroids, from the seven arrays. -/
def rowOut (n : Nat) (pxy : (⟨3, ![n, 128, 2]⟩ : Shape).Idx → EReal) (pm : (⟨1, ![128]⟩ : Shape).Idx → EReal)
    (axy : (⟨2, ![n, 2]⟩ : Shape).Idx → EReal) (W1 : (⟨2, ![4, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (r : Fin n) (k : Fin 64) : EReal :=
  cell (fun p d => pxy (ix3 r p d)) (fun d => axy (ix2 r d)) (fun p => pm (ix1 p)) (fun f h => W1 (ix2 f h))
    (fun h => b1 (ix1 h)) (fun h k => W2 (ix2 h k)) (fun k => b2 (ix1 k)) k

/-- The whole [32768, 64] result as one function of the seven argument arrays. -/
def G (pxy : (⟨3, ![32768, 128, 2]⟩ : Shape).Idx → EReal) (pm : (⟨1, ![128]⟩ : Shape).Idx → EReal)
    (axy : (⟨2, ![32768, 2]⟩ : Shape).Idx → EReal) (W1 : (⟨2, ![4, 64]⟩ : Shape).Idx → EReal)
    (b1 : (⟨1, ![64]⟩ : Shape).Idx → EReal) (W2 : (⟨2, ![64, 64]⟩ : Shape).Idx → EReal)
    (b2 : (⟨1, ![64]⟩ : Shape).Idx → EReal) : (⟨2, ![32768, 64]⟩ : Shape).Idx → EReal :=
  fun i => rowOut 32768 pxy pm axy W1 b1 W2 b2 ⟨(i 0).val, (i 0).isLt⟩ ⟨(i 1).val, (i 1).isLt⟩

end Cert.Gravity

end
-- ==== Proof.Relayout.lean ====
/-
  The kernel body's re-layings read at an index. Between its arithmetic the body only moves values around: it spreads a
  per-asteroid or per-planet or per-unit value over a [128, 128, 64] block, cuts the two coordinates out of the offsets,
  picks a row of the first-layer weights, and folds the (asteroid, planet) pair into one row index `128·r + p` for the
  matrix product and back. Each lemma says which ONE element of the operand such a chain reads at a given index.
-/
import proofs.«165896_j75496935129487_1_alg».proof.KernelIdeal
import Idealize.ShloMosaic.Lib.Pipeline.Value
import Idealize.ShloMosaic.Lib.ValueIdx

noncomputable section

namespace Cert.Gravity.Relayout

open Cert.KernelIdeal Idealize.ShloMosaic Idealize.ShloMosaic.ValueIdx

variable {α : Type}

/-- The asteroid's position, given a unit planet axis and spread over the planets: at (r, p, d) it is the asteroid's `d`. -/
theorem ast_bcast_apply (X : S128x2.Idx → α) (hc : S128x2.ShapeCasts S128x1x2) (hb : S128x1x2.Broadcasts S128x128x2)
    (r p : Fin 128) (d : Fin 2) :
    broadcastTo S128x128x2 (shapeCast S128x1x2 X hc) hb (ix3 r p d) = X (ix2 r d) := by
  refine (broadcastTo_apply _ hb (ix3 r p d) (ix3 r (0 : Fin 1) d) fun a => ?_).trans ?_
  · match a with
    | ⟨0, _⟩ => show r.val = if (128 : Nat) = 1 then 0 else r.val; rw [if_neg (by decide)]
    | ⟨1, _⟩ => show 0 = if (1 : Nat) = 1 then 0 else p.val; rw [if_pos rfl]
    | ⟨2, _⟩ => show d.val = if (2 : Nat) = 1 then 0 else d.val; rw [if_neg (by decide)]
  · refine shapeCast_apply X hc (ix3 r (0 : Fin 1) d) (ix2 r d) ?_
    rw [Shape.rowMajor_val_three, Shape.rowMajor_val_two]
    show r.val * 2 + d.val = (r.val * 1 + 0) * 2 + d.val
    omega

/-- Coordinate `d` of the offsets, as a [128, 128] array: the slice at lane `d` with its unit axis dropped. -/
theorem coord_apply (X : S128x128x2.Idx → α) (d : Fin 2) (off : Fin 3 → Nat) (hoff : off = ![0, 0, d.val])
    (hs : S128x128x2.Slices off S128x128x1) (hc : S128x128x1.ShapeCasts S128x128) (r p : Fin 128) :
    shapeCast S128x128 (extractStridedSlice S128x128x1 off X hs) hc (ix2 r p) = X (ix3 r p d) := by
  subst hoff
  refine (shapeCast_apply _ hc (ix2 r p) (ix3 r p (0 : Fin 1)) ?_).trans ?_
  · rw [Shape.rowMajor_val_three, Shape.rowMajor_val_two]
    show (r.val * 128 + p.val) * 1 + 0 = r.val * 128 + p.val
    omega
  · refine extractStridedSlice_apply _ X hs (ix3 r p (0 : Fin 1)) (ix3 r p d) fun a => ?_
    match a with
    | ⟨0, _⟩ => show r.val = 0 + r.val; omega
    | ⟨1, _⟩ => show p.val = 0 + p.val; omega
    | ⟨2, _⟩ => show d.val = d.val + 0; rfl

/-- A per-pair value given a unit lane axis and spread over the 64 hidden units: at (r, p, h) it is the pair's value. -/
theorem pair_bcast_apply (Y : S128x128.Idx → α) (hc : S128x128.ShapeCasts S128x128x1)
    (hb : S128x128x1.Broadcasts S128x128x64) (r p : Fin 128) (h : Fin 64) :
    broadcastTo S128x128x64 (shapeCast S128x128x1 Y hc) hb (ix3 r p h) = Y (ix2 r p) := by
  refine (broadcastTo_apply _ hb (ix3 r p h) (ix3 r p (0 : Fin 1)) fun a => ?_).trans ?_
  · match a with
    | ⟨0, _⟩ => show r.val = if (128 : Nat) = 1 then 0 else r.val; rw [if_neg (by decide)]
    | ⟨1, _⟩ => show p.val = if (128 : Nat) = 1 then 0 else p.val; rw [if_neg (by decide)]
    | ⟨2, _⟩ => show 0 = if (1 : Nat) = 1 then 0 else h.val; rw [if_pos rfl]
  · refine shapeCast_apply Y hc (ix3 r p (0 : Fin 1)) (ix2 r p) ?_
    rw [Shape.rowMajor_val_three, Shape.rowMajor_val_two]
    show r.val * 128 + p.val = (r.val * 128 + p.val) * 1 + 0
    omega

/-- A per-unit vector of 64 given two unit axes and spread over every pair: at (r, p, h) it is the vector's `h`. -/
theorem bias_bcast_apply (Z : S64.Idx → α) (hc : S64.ShapeCasts S1x1x64) (hb : S1x1x64.Broadcasts S128x128x64)
    (r p : Fin 128) (h : Fin 64) :
    broadcastTo S128x128x64 (shapeCast S1x1x64 Z hc) hb (ix3 r p h) = Z (ix1 h) := by
  refine (broadcastTo_apply _ hb (ix3 r p h) (ix3 (0 : Fin 1) (0 : Fin 1) h) fun a => ?_).trans ?_
  · match a with
    | ⟨0, _⟩ => show 0 = if (1 : Nat) = 1 then 0 else r.val; rw [if_pos rfl]
    | ⟨1, _⟩ => show 0 = if (1 : Nat) = 1 then 0 else p.val; rw [if_pos rfl]
    | ⟨2, _⟩ => show h.val = if (64 : Nat) = 1 then 0 else h.val; rw [if_neg (by decide)]
  · refine shapeCast_apply Z hc (ix3 (0 : Fin 1) (0 : Fin 1) h) (ix1 h) ?_
    rw [Shape.rowMajor_val_three, Shape.rowMajor_val_one]
    show h.val = (0 * 1 + 0) * 64 + h.val
    omega

/-- Row `f` of the 4×64 first-layer weights as a vector of 64: the one-row slice with its unit axis dropped. -/
theorem w1pick_apply (W : S4x64.Idx → α) (f : Fin 4) (off : Fin 2 → Nat) (hoff : off = ![f.val, 0])
    (hs : S4x64.Slices off S1x64) (hc1 : S1x64.ShapeCasts S64) (h : Fin 64) :
    shapeCast S64 (extractStridedSlice S1x64 off W hs) hc1 (ix1 h) = W (ix2 f h) := by
  subst hoff
  refine (shapeCast_apply _ hc1 (ix1 h) (ix2 (0 : Fin 1) h) ?_).trans ?_
  · rw [Shape.rowMajor_val_two, Shape.rowMajor_val_one]
    show 0 * 64 + h.val = h.val
    omega
  · refine extractStridedSlice_apply _ W hs (ix2 (0 : Fin 1) h) (ix2 f h) fun a => ?_
    match a with
    | ⟨0, _⟩ => show f.val = f.val + 0; rfl
    | ⟨1, _⟩ => show h.val = 0 + h.val; omega

/-- The planets' masses as one row spread over the asteroids: at (r, p) it is planet `p`'s mass. -/
theorem mass_bcast_apply (M : S128.Idx → α) (h1 : S128.ShapeCasts S1x128) (h2 : S1x128.ShapeCasts S1x128)
    (hb : S1x128.Broadcasts S128x128) (r p : Fin 128) :
    broadcastTo S128x128 (shapeCast S1x128 (shapeCast S1x128 M h1) h2) hb (ix2 r p) = M (ix1 p) := by
  rw [shapeCast_self]
  refine (broadcastTo_apply _ hb (ix2 r p) (ix2 (0 : Fin 1) p) fun a => ?_).trans ?_
  · match a with
    | ⟨0, _⟩ => show 0 = if (1 : Nat) = 1 then 0 else r.val; rw [if_pos rfl]
    | ⟨1, _⟩ => show p.val = if (128 : Nat) = 1 then 0 else p.val; rw [if_neg (by decide)]
  · refine shapeCast_apply M h1 (ix2 (0 : Fin 1) p) (ix1 p) ?_
    rw [Shape.rowMajor_val_two, Shape.rowMajor_val_one]
    show p.val = 0 * 128 + p.val
    omega

/-- Folding (asteroid, planet) into one row index: row `128·r + p` of the folded array is entry (r, p). -/
theorem fold_pairs_apply (X : S128x128x64.Idx → α) (hc : S128x128x64.ShapeCasts S16384x64) (r p : Fin 128) (h : Fin 64)
    (q : Fin 16384) (hq : q.val = 128 * r.val + p.val) :
    shapeCast S16384x64 X hc (ix2 q h) = X (ix3 r p h) := by
  refine shapeCast_apply X hc (ix2 q h) (ix3 r p h) ?_
  rw [Shape.rowMajor_val_three, Shape.rowMajor_val_two]
  show (r.val * 128 + p.val) * 64 + h.val = q.val * 64 + h.val
  omega

/-- and back: entry (r, p) of the unfolded array is row `128·r + p`. -/
theorem unfold_pairs_apply (Y : S16384x64.Idx → α) (hc : S16384x64.ShapeCasts S128x128x64) (r p : Fin 128) (k : Fin 64)
    (q : Fin 16384) (hq : q.val = 128 * r.val + p.val) :
    shapeCast S128x128x64 Y hc (ix3 r p k) = Y (ix2 q k) := by
  refine shapeCast_apply Y hc (ix3 r p k) (ix2 q k) ?_
  rw [Shape.rowMajor_val_three, Shape.rowMajor_val_two]
  show q.val * 64 + k.val = (r.val * 128 + p.val) * 64 + k.val
  omega

/-- The second bias as one row spread over the 16384 folded rows: at (q, k) it is the bias's `k`. -/
theorem bias2_bcast_apply (Z : S64.Idx → α) (hc : S64.ShapeCasts S1x64) (hb : S1x64.Broadcasts S16384x64)
    (q : Fin 16384) (k : Fin 64) :
    broadcastTo S16384x64 (shapeCast S1x64 Z hc) hb (ix2 q k) = Z (ix1 k) := by
  refine (broadcastTo_apply _ hb (ix2 q k) (ix2 (0 : Fin 1) k) fun a => ?_).trans ?_
  · match a with
    | ⟨0, _⟩ => show 0 = if (1 : Nat) = 1 then 0 else q.val; rw [if_pos rfl]
    | ⟨1, _⟩ => show k.val = if (64 : Nat) = 1 then 0 else k.val; rw [if_neg (by decide)]
  · refine shapeCast_apply Z hc (ix2 (0 : Fin 1) k) (ix1 k) ?_
    rw [Shape.rowMajor_val_two, Shape.rowMajor_val_one]
    show k.val = 0 * 64 + k.val
    omega

end Cert.Gravity.Relayout

end
-- ==== Proof.KernelCell.lean ====
/-
  The kernel body's stored value, read at an index, at the ideal instance.

  One grid point handles 128 asteroids. Its body computes, for every (asteroid r, planet p, hidden unit h), the first
  layer `max (dx·W1[0,h] + dy·W1[1,h] + rsqrt(dx² + dy² + ε)·W1[2,h] + m_p·W1[3,h] + b1[h]) 0`, folds (r, p) into one row
  index `128·r + p`, multiplies by `W2` on the matrix unit, adds `b2`, clamps at zero, unfolds the row index and sums
  over the planets. This module reads that chain at row `r`, channel `k` of the stored block and finds the
  specification's `rowOut 128` of the seven input blocks, term for term.
-/
import proofs.«165896_j75496935129487_1_alg».proof.Proof.Gen.KernelIdeal
import proofs.«165896_j75496935129487_1_alg».proof.Proof.Gen.KernelIdeal.Skeleton
import proofs.«165896_j75496935129487_1_alg».proof.Proof.Spec
import proofs.«165896_j75496935129487_1_alg».proof.Proof.Relayout
import Idealize.ShloMosaic.PureOps.Ideal.Laws
import Idealize.ShloMosaic.Lib.ValueIdx

noncomputable section

namespace Cert.Gravity.KernelCell

open Cert.KernelIdeal Cert.KernelIdeal.Gen Idealize.ShloMosaic Idealize.ShloMosaic.ValueIdx Cert.Gravity Cert.Gravity.Relayout

/-- The reciprocal square root of an array, read at an index. -/
theorem rsqrt_apply {s : Shape} {φ : FTy} (a : FVec Ideal s φ) (i : s.Idx) : rsqrt a i = Ideal.rsqrt (a i) := rfl

/-- The first three terms of the first layer before the bias, at pair (r, p) and hidden unit `h`: the two offset
    coordinates and the reciprocal softened distance, each times its row of the first-layer weights. -/
theorem pay2_apply (x0 : Vec Ideal S128x128x2 .f32) (x1 : Vec Ideal S128x2 .f32) (x3 : Vec Ideal S4x64 .f32)
    (r p : Fin 128) (h : Fin 64) :
    k0_pay2 (F := Ideal) x0 x1 x3 (ix3 r p h)
      = (x0 (ix3 r p 0) - x1 (ix2 r 0)) * x3 (ix2 0 h) + (x0 (ix3 r p 1) - x1 (ix2 r 1)) * x3 (ix2 1 h)
        + Ideal.rsqrt (dist2 (x0 (ix3 r p 0) - x1 (ix2 r 0)) (x0 (ix3 r p 1) - x1 (ix2 r 1))) * x3 (ix2 2 h) := by
  unfold k0_pay2
  simp only [addf_apply, mulf_apply, subf_apply, rsqrt_apply, broadcast_apply, pair_bcast_apply, bias_bcast_apply,
    coord_apply _ (0 : Fin 2) ![0, 0, 0] rfl, coord_apply _ (1 : Fin 2) ![0, 0, 1] rfl, ast_bcast_apply,
    w1pick_apply _ (0 : Fin 4) ![0, 0] rfl, w1pick_apply _ (1 : Fin 4) ![1, 0] rfl, w1pick_apply _ (2 : Fin 4) ![2, 0] rfl]
  rfl

/-- The mass term's two factors: the planet's mass spread over the block, and row 3 of the first-layer weights. -/
theorem pay4_apply (x2 : Vec Ideal S128 .f32) (r p : Fin 128) (h : Fin 64) :
    k0_pay4 (F := Ideal) x2 (ix3 r p h) = x2 (ix1 p) := by
  unfold k0_pay4
  simp only [pair_bcast_apply, mass_bcast_apply]

theorem pay3_apply (x3 : Vec Ideal S4x64 .f32) (hb : S1x1x64.Broadcasts S128x128x64) (r p : Fin 128) (h : Fin 64) :
    broadcastTo S128x128x64 (k0_pay3 (F := Ideal) x3) hb (ix3 r p h) = x3 (ix2 3 h) := by
  unfold k0_pay3
  simp only [bias_bcast_apply, w1pick_apply _ (3 : Fin 4) ![3, 0] rfl]

/-! The second layer's matrix product: the coordinates of the operand indices along the contracted axis. -/

theorem lhs_0 (i : S16384x64.Idx) (q : dot_S16384x64_S64x64_S16384x64_1_0_0_1_n_n.contr.Idx) :
    (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem lhs_1 (i : S16384x64.Idx) (q : dot_S16384x64_S64x64_S16384x64_1_0_0_1_n_n.contr.Idx) :
    (dot_S16384x64_S64x64_S16384x64_1_0_0_1_n_n.lhsIdx i q 1).val = (q ⟨0, by decide⟩).val :=
  dot_S16384x64_S64x64_S16384x64_1_0_0_1_n_n.lhsIdx_val_of_single rfl i q
theorem rhs_0 (i : S16384x64.Idx) (q : dot_S16384x64_S64x64_S16384x64_1_0_0_1_n_n.contr.Idx) :
    (dot_S16384x64_S64x64_S16384x64_1_0_0_1_n_n.rhsIdx i q 0).val = (q ⟨0, by decide⟩).val :=
  dot_S16384x64_S64x64_S16384x64_1_0_0_1_n_n.rhsIdx_val_of_single rfl i q
theorem rhs_1 (i : S16384x64.Idx) (q : dot_S16384x64_S64x64_S16384x64_1_0_0_1_n_n.contr.Idx) :
    (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl

/-- The matrix product into a zero accumulator, at folded row `q` and channel `k`: the sum over the 64 hidden units. -/
theorem layer2_apply (L : FVec Ideal S16384x64 .bf16) (R : FVec Ideal S64x64 .bf16) (q : Fin 16384) (k : Fin 64) :
    matmul dot_S16384x64_S64x64_S16384x64_1_0_0_1_n_n none L R (constant S16384x64 .f32 0x00000000#32) (ix2 q k)
      = ∑ h : Fin 64, L (ix2 q h) * R (ix2 h k) := by
  refine (Ideal.matmul_constant_zero_apply dot_S16384x64_S64x64_S16384x64_1_0_0_1_n_n none L R (ix2 q k)).trans ?_
  rw [← Equiv.sum_comp (ValueIdx.contrEquiv1 dot_S16384x64_S64x64_S16384x64_1_0_0_1_n_n 64 rfl rfl).symm]
  refine Finset.sum_congr rfl fun h _ => ?_
  have hk := ValueIdx.contrEquiv1_symm_val dot_S16384x64_S64x64_S16384x64_1_0_0_1_n_n 64 rfl rfl h
  have el : dot_S16384x64_S64x64_S16384x64_1_0_0_1_n_n.lhsIdx (ix2 q k) ((ValueIdx.contrEquiv1 dot_S16384x64_S64x64_S16384x64_1_0_0_1_n_n 64 rfl rfl).symm h) = ix2 q h := funext fun a => Fin.ext (by
    match a with
    | ⟨0, _⟩ => exact lhs_0 _ _
    | ⟨1, _⟩ => exact (lhs_1 _ _).trans hk)
  have er : dot_S16384x64_S64x64_S16384x64_1_0_0_1_n_n.rhsIdx (ix2 q k) ((ValueIdx.contrEquiv1 dot_S16384x64_S64x64_S16384x64_1_0_0_1_n_n 64 rfl rfl).symm h) = ix2 h k := funext fun a => Fin.ext (by
    match a with
    | ⟨0, _⟩ => exact (rhs_0 _ _).trans hk
    | ⟨1, _⟩ => exact rhs_1 _ _)
  rw [el, er]

/-- The sum over the planet axis of a [128, 128, 64] block, at asteroid `r` and channel `k`. -/
theorem planet_sum_apply (X : FVec Ideal S128x128x64 .f32) (hr : S128x128x64.Reduces [1] S128x64) (hφ : FKind.Formats .f32)
    (hacc : (0x00000000#32 : BitVec 32) = FKind.add.neutral .f32 hφ) (r : Fin 128) (k : Fin 64) :
    multiReduction .add [1] S128x64 X 0x00000000#32 hr hφ hacc (ix2 r k) = ∑ p : Fin 128, X (ix3 r p k) := by
  refine (Ideal.multiReduction_add_single X 0x00000000#32 hr hφ hacc (ix2 r k)).trans ?_
  refine Finset.sum_congr rfl fun p _ => congrArg X (funext fun a => Fin.ext ?_)
  match a with
  | ⟨0, _⟩ => rfl
  | ⟨1, _⟩ => rfl
  | ⟨2, _⟩ => rfl

/-- THE BODY'S STORED VALUE at row `r` and channel `k` of a block is the specification's row function of the seven
    input blocks: the same additions in the same order, the change to bf16 in front of the matrix product the identity
    on extended reals, the matrix product and the planet sum plain sums. -/
theorem payload_apply (x0 : Vec Ideal S128x128x2 .f32) (x1 : Vec Ideal S128x2 .f32) (x2 : Vec Ideal S128 .f32)
    (x3 : Vec Ideal S4x64 .f32) (x4 : Vec Ideal S64 .f32) (x5 : Vec Ideal S64x64 .f32) (x6 : Vec Ideal S64 .f32)
    (r : Fin 128) (k : Fin 64) :
    k0_pay1 (F := Ideal) x4 (k0_pay2 x0 x1 x3) (k0_pay3 x3) (k0_pay4 x2) x5 x6 (ix2 r k)
      = rowOut 128 x0 x2 x1 x3 x4 x5 x6 r k := by
  unfold k0_pay1
  refine (planet_sum_apply _ _ _ _ r k).trans ?_
  unfold rowOut cell
  refine Finset.sum_congr rfl fun p _ => ?_
  obtain ⟨q, hq⟩ : ∃ q : Fin 16384, q.val = 128 * r.val + p.val :=
    ⟨⟨128 * r.val + p.val, by have := r.isLt; have := p.isLt; omega⟩, rfl⟩
  have hfold : ∀ (X : S128x128x64.Idx → EReal) (hc : S128x128x64.ShapeCasts S16384x64) (h : Fin 64),
      shapeCast S16384x64 X hc (ix2 q h) = X (ix3 r p h) := fun X hc h => fold_pairs_apply X hc r p h q hq
  refine (unfold_pairs_apply _ _ r p k q hq).trans ?_
  simp only [maximumf_apply, addf_apply, mulf_apply, broadcast_apply, truncf_apply, layer2_apply, bias2_bcast_apply,
    hfold, pay2_apply, pay3_apply, pay4_apply, bias_bcast_apply]
  rfl

end Cert.Gravity.KernelCell

end
-- ==== Proof.KernelValue.lean ====
/-
  From one grid point's block to the whole result array, for the idealized kernel.

  Grid point `t` (of 256) stages asteroids `128·t … 128·t + 127`: the planets' and the asteroids' blocks move with `t`
  along the batch axis, the masses and the four parameter arrays are staged whole at every point. So what point `t`
  writes back — the body's stored value of those blocks — is rows `128·t …` of the specification's `G` of the whole
  argument arrays, the 256 row blocks cover the result array, and after the run the result array is `G`.
-/
import proofs.«165896_j75496935129487_1_alg».proof.Proof.Gen.KernelIdeal.Value
import proofs.«165896_j75496935129487_1_alg».proof.Proof.KernelCell
import Idealize.ShloMosaic.Lib.Pipeline.Value
import Idealize.ShloMosaic.Lib.Tactic

noncomputable section

namespace Cert.Gravity.KernelValue

open Cert.KernelIdeal Cert.KernelIdeal.Gen Cert.KernelIdeal.Value Idealize.ShloMosaic Idealize.ShloMosaic.TcCoe
  Idealize.SL.Sem Idealize.ShloMosaic.ValueIdx Cert.Gravity
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 256 grid points: the planets', the asteroids' and the result's block
    index on the batch axis is the point's position, every other block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## Each input block as entries of its argument array -/

theorem planets_blk (c : Dev nD) (t : Fin cfg0.N) (r p : Fin 128) (d : Fin 2) (j : S32768x128x2.Idx)
    (h0 : (j 0).val = 128 * t.val + r.val) (h1 : (j 1).val = p.val) (h2 : (j 2).val = d.val) :
    (iblk m c 0 t : Vec Ideal S128x128x2 .f32) (ix3 r p d) = (V m c main_arg0 : S32768x128x2.Idx → EReal) j := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 3) * 128 + 1 * r.val = (j 0).val; rw [e0, h0]; omega
  | ⟨1, _⟩ => show win0_0.index t (1 : Fin 3) * 128 + 1 * p.val = (j 1).val; rw [e1, h1]; omega
  | ⟨2, _⟩ => show win0_0.index t (2 : Fin 3) * 2 + 1 * d.val = (j 2).val; rw [e2, h2]; omega

theorem asteroids_blk (c : Dev nD) (t : Fin cfg0.N) (r : Fin 128) (d : Fin 2) (j : S32768x2.Idx)
    (h0 : (j 0).val = 128 * t.val + r.val) (h1 : (j 1).val = d.val) :
    (iblk m c 1 t : Vec Ideal S128x2 .f32) (ix2 r d) = (V m c main_arg2 : S32768x2.Idx → EReal) j := by
  obtain ⟨-, -, -, e0, e1, -⟩ := idx_facts t
  unfold iblk
  rw [View.read_apply]
  show V m c main_arg2 _ = V m c main_arg2 _
  refine congrArg (V m c main_arg2) (funext fun a => Fin.ext ?_)
  match a with
  | ⟨0, _⟩ => show win0_1.index t (0 : Fin 2) * 128 + 1 * r.val = (j 0).val; rw [e0, h0]; omega
  | ⟨1, _⟩ => show win0_1.index t (1 : Fin 2) * 2 + 1 * d.val = (j 1).val; rw [e1, h1]; omega

theorem masses_blk (c : Dev nD) (t : Fin cfg0.N) (p : Fin 128) :
    (iblk m c 2 t : Vec Ideal S128 .f32) (ix1 p) = (V m c main_arg1 : S128.Idx → EReal) (ix1 p) := by
  obtain ⟨-, -, -, -, -, e0, -⟩ := idx_facts t
  unfold iblk
  rw [View.read_apply]
  show V m c main_arg1 _ = V m c main_arg1 _
  refine congrArg (V m c main_arg1) (funext fun a => Fin.ext ?_)
  match a with
  | ⟨0, _⟩ => show win0_2.index t (0 : Fin 1) * 128 + 1 * p.val = p.val; rw [e0]; omega

theorem w1_blk (c : Dev nD) (t : Fin cfg0.N) (f : Fin 4) (h : Fin 64) :
    (iblk m c 3 t : Vec Ideal S4x64 .f32) (ix2 f h) = (V m c main_arg3 : S4x64.Idx → EReal) (ix2 f h) := by
  obtain ⟨-, -, -, -, -, -, e0, e1, -⟩ := idx_facts t
  unfold iblk
  rw [View.read_apply]
  show V m c main_arg3 _ = V m c main_arg3 _
  refine congrArg (V m c main_arg3) (funext fun a => Fin.ext ?_)
  match a with
  | ⟨0, _⟩ => show win0_3.index t (0 : Fin 2) * 4 + 1 * f.val = f.val; rw [e0]; omega
  | ⟨1, _⟩ => show win0_3.index t (1 : Fin 2) * 64 + 1 * h.val = h.val; rw [e1]; omega

theorem b1_blk (c : Dev nD) (t : Fin cfg0.N) (h : Fin 64) :
    (iblk m c 4 t : Vec Ideal S64 .f32) (ix1 h) = (V m c main_arg4 : S64.Idx → EReal) (ix1 h) := by
  obtain ⟨-, -, -, -, -, -, -, -, e0, -⟩ := idx_facts t
  unfold iblk
  rw [View.read_apply]
  show V m c main_arg4 _ = V m c main_arg4 _
  refine congrArg (V m c main_arg4) (funext fun a => Fin.ext ?_)
  match a with
  | ⟨0, _⟩ => show win0_4.index t (0 : Fin 1) * 64 + 1 * h.val = h.val; rw [e0]; omega

theorem w2_blk (c : Dev nD) (t : Fin cfg0.N) (h k : Fin 64) :
    (iblk m c 5 t : Vec Ideal S64x64 .f32) (ix2 h k) = (V m c main_arg5 : S64x64.Idx → EReal) (ix2 h k) := by
  obtain ⟨-, -, -, -, -, -, -, -, -, e0, e1, -⟩ := idx_facts t
  unfold iblk
  rw [View.read_apply]
  show V m c main_arg5 _ = V m c main_arg5 _
  refine congrArg (V m c main_arg5) (funext fun a => Fin.ext ?_)
  match a with
  | ⟨0, _⟩ => show win0_5.index t (0 : Fin 2) * 64 + 1 * h.val = h.val; rw [e0]; omega
  | ⟨1, _⟩ => show win0_5.index t (1 : Fin 2) * 64 + 1 * k.val = k.val; rw [e1]; omega

theorem b2_blk (c : Dev nD) (t : Fin cfg0.N) (k : Fin 64) :
    (iblk m c 6 t : Vec Ideal S64 .f32) (ix1 k) = (V m c main_arg6 : S64.Idx → EReal) (ix1 k) := by
  obtain ⟨-, -, -, -, -, -, -, -, -, -, -, e0, -⟩ := idx_facts t
  unfold iblk
  rw [View.read_apply]
  show V m c main_arg6 _ = V m c main_arg6 _
  refine congrArg (V m c main_arg6) (funext fun a => Fin.ext ?_)
  match a with
  | ⟨0, _⟩ => show win0_6.index t (0 : Fin 1) * 64 + 1 * k.val = k.val; rw [e0]; omega

/-! ## What a point writes back, the cover, the array after the run -/

/-- The result array as the specification's function of the argument arrays as the region finds them. -/
abbrev result (c : Dev nD) : S32768x64.Idx → EReal :=
  G (V m c main_arg0) (V m c main_arg1) (V m c main_arg2) (V m c main_arg3) (V m c main_arg4) (V m c main_arg5)
    (V m c main_arg6)

/-- Row `r`, channel `k` of the body's stored value at point `t` is row `128·t + r`, channel `k` of `result`. -/
theorem stored_apply (c : Dev nD) (t : Fin cfg0.N) (r : Fin 128) (k : Fin 64) (i : S32768x64.Idx)
    (h0 : (i 0).val = 128 * t.val + r.val) (h1 : (i 1).val = k.val) :
    k0_pay1 (F := Ideal) (iblk m c 4 t) (k0_pay2 (iblk m c 0 t) (iblk m c 1 t) (iblk m c 3 t)) (k0_pay3 (iblk m c 3 t))
      (k0_pay4 (iblk m c 2 t)) (iblk m c 5 t) (iblk m c 6 t) (ix2 r k) = result m c i := by
  refine (KernelCell.payload_apply (iblk m c 0 t) (iblk m c 1 t) (iblk m c 2 t) (iblk m c 3 t) (iblk m c 4 t)
    (iblk m c 5 t) (iblk m c 6 t) r k).trans ?_
  unfold result G rowOut
  have hk : (⟨(i 1).val, (i 1).isLt⟩ : Fin 64) = k := Fin.ext h1
  rw [hk]
  congr 1
  · funext p d; exact planets_blk m c t r p d _ h0 rfl rfl
  · funext d; exact asteroids_blk m c t r d _ h0 rfl
  · funext p; exact masses_blk m c t p
  · funext f h; exact w1_blk m c t f h
  · funext h; exact b1_blk m c t h
  · funext h k; exact w2_blk m c t h k
  · funext k; exact b2_blk m c t k

/-- WHAT POINT `t` WRITES BACK is block `t` of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz2]
  simp only [View.ld_unit_zero (S := S128x128x2) hz3, View.ld_unit_zero (S := S128x2) hz2,
    View.ld_unit_zero (S := S128) hz1, View.ld_unit_zero (S := S4x64) hz2, View.ld_unit_zero (S := S64) hz1,
    View.ld_unit_zero (S := S64x64) hz2]
  obtain ⟨-, -, -, -, -, -, -, -, -, -, -, -, e0, e1⟩ := idx_facts t
  funext y
  show k0_pay1 (F := Ideal) (iblk m c 4 t) (k0_pay2 (iblk m c 0 t) (iblk m c 1 t) (iblk m c 3 t)) (k0_pay3 (iblk m c 3 t))
      (k0_pay4 (iblk m c 2 t)) (iblk m c 5 t) (iblk m c 6 t) y = result m c (((cfg0.win 7).blk t).view.emb y)
  rw [eq_ix2 y]
  refine stored_apply m c t (y 0) (y 1) _ ?_ ?_
  · show win0_7.index t (0 : Fin 2) * 128 + 1 * (y 0).val = 128 * t.val + (y 0).val; rw [e0]; omega
  · show win0_7.index t (1 : Fin 2) * 64 + 1 * (y 1).val = (y 1).val; rw [e1]; omega

/-- An index of the result array is in point `t`'s block iff each coordinate is in the block's range on its axis. -/
theorem mem_blk (t : Fin cfg0.N) (i : S32768x64.Idx) :
    i ∈ ((cfg0.win 7).blk t).view.set ↔ ∀ a : Fin 2, win0_7.index t a * S128x64.size a ≤ (i a).val ∧ (i a).val < win0_7.index t a * S128x64.size a + S128x64.size a := by
  show i ∈ ((View.whole main_v0).slice (win0_7.rect t)).set ↔ _
  rw [View.set_slice_whole, Rect.mem_set_unit]
  exact Iff.rfl

/-- Every index of the result array lies in the block of the point that handles its row: point `row / 128`. -/
theorem cover (i : S32768x64.Idx) : ∃ t : Fin cfg0.N, (cfg0.win 7).flush t = true ∧ i ∈ ((cfg0.win 7).blk t).view.set := by
  have hi0 : (i 0).val < 32768 := (i 0).isLt
  have hi1 : (i 1).val < 64 := (i 1).isLt
  have hN : cfg0.N = 256 := N_0
  refine ⟨⟨(i 0).val / 128, by rw [hN]; omega⟩, flush0_7 _, ?_⟩
  rw [mem_blk]
  obtain ⟨-, -, -, -, -, -, -, -, -, -, -, -, e0, e1⟩ := idx_facts ⟨(i 0).val / 128, by rw [hN]; omega⟩
  intro a
  match a with
  | ⟨0, _⟩ => show win0_7.index _ (0 : Fin 2) * 128 ≤ (i 0).val ∧ (i 0).val < win0_7.index _ (0 : Fin 2) * 128 + 128; rw [e0]; show (i 0).val / 128 * 128 ≤ (i 0).val ∧ (i 0).val < (i 0).val / 128 * 128 + 128; omega
  | ⟨1, _⟩ => show win0_7.index _ (1 : Fin 2) * 64 ≤ (i 1).val ∧ (i 1).val < win0_7.index _ (1 : Fin 2) * 64 + 64; rw [e1]; omega

/-- THE RESULT ARRAY after the run is `result`. -/
theorem final (c : Dev nD) : (dats m 0 c).arrAt 7 cfg0.N = result m c :=
  (dats m 0 c).arrAt_eq_of_cover 7 (result m c) (fun t _ => flushed_eq m c t) cover

/-- The run, read: the result array at the specification's `G` of the arguments as launched, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.Gravity.KernelValue

end
-- ==== Proof.RefCell.lean ====
/-
  The reference's last stage is the specification's whole-array function `G`.

  The reference is read one operation at a time: the planets' offsets from the asteroid; their squares summed over the two
  coordinates from a zero start, plus ε; one over the square root of that; the features (dx, dy, 1/dist, mass) laid
  side by side along a new last axis of length 4; a contraction with the 4×64 weights; bias, clamp; a contraction with
  the 64×64 weights; bias, clamp; the sum over the planets from a zero start. Against the specification three things
  differ in spelling only: the sum over the four features is the four products added in order, a sum from a zero start
  is the sum, and `1 / sqrt z` is `rsqrt z` because `z = dx² + dy² + ε` is never negative.
-/
import proofs.«165896_j75496935129487_1_alg».proof.Proof.Gen.ReferenceIdeal.Read
import proofs.«165896_j75496935129487_1_alg».proof.Proof.Spec
import Idealize.ShloMosaic.Lib.Pipeline.Value
import Idealize.ShloMosaic.Lib.ValueIdx
import Idealize.ShloMosaic.PureOps.Ideal.Laws

noncomputable section

namespace Cert.Gravity.RefCell

open Cert.ReferenceIdeal Cert.ReferenceIdeal.Read Idealize.ShloMosaic Idealize.ShloMosaic.ValueIdx Cert.Gravity

/-! ## Where each stage reads its operand, in coordinates -/

variable (b : Fin 32768) (p : Fin 128) (h k : Fin 64) (d : Fin 2) (f : Fin 4)

theorem at_planets : idx_main_v25 (ix2 b k) p = ix3 b p k := funext fun a => Fin.ext (by match a with | ⟨0, _⟩ => rfl | ⟨1, _⟩ => rfl | ⟨2, _⟩ => rfl)
theorem at_bias2 : idx_main_v21 (idx_main_v22 (ix3 b p k)) = ix1 k := funext fun a => Fin.ext (by match a with | ⟨0, _⟩ => rfl)
theorem at_hidden : lidx_main_v20 (ix3 b p k) h = ix3 b p h := funext fun a => Fin.ext (by match a with | ⟨0, _⟩ => rfl | ⟨1, _⟩ => rfl | ⟨2, _⟩ => rfl)
theorem at_w2 : ridx_main_v20 (ix3 b p k) h = ix2 h k := funext fun a => Fin.ext (by match a with | ⟨0, _⟩ => rfl | ⟨1, _⟩ => rfl)
theorem at_bias1 : idx_main_v16 (idx_main_v17 (ix3 b p h)) = ix1 h := funext fun a => Fin.ext (by match a with | ⟨0, _⟩ => rfl)
theorem at_feat : lidx_main_v15 (ix3 b p h) f = ix3 b p f := funext fun a => Fin.ext (by match a with | ⟨0, _⟩ => rfl | ⟨1, _⟩ => rfl | ⟨2, _⟩ => rfl)
theorem at_w1 : ridx_main_v15 (ix3 b p h) f = ix2 f h := funext fun a => Fin.ext (by match a with | ⟨0, _⟩ => rfl | ⟨1, _⟩ => rfl)
theorem at_ast : idx_main_v0 (idx_main_v1 (ix3 b p d)) = ix2 b d := funext fun a => Fin.ext (by match a with | ⟨0, _⟩ => rfl | ⟨1, _⟩ => rfl)
theorem at_inv : idx_main_v12 (ix3 b p (0 : Fin 1)) = ix2 b p := funext fun a => Fin.ext (by match a with | ⟨0, _⟩ => rfl | ⟨1, _⟩ => rfl)
theorem at_mass_pair : idx_main_v13 (ix3 b p (0 : Fin 1)) = ix2 b p := funext fun a => Fin.ext (by match a with | ⟨0, _⟩ => rfl | ⟨1, _⟩ => rfl)
theorem at_mass : idx_main_v10 (idx_main_v11 (ix2 b p)) = ix1 p := funext fun a => Fin.ext (by match a with | ⟨0, _⟩ => rfl)
theorem at_coord : idx_main_v4 (ix2 b p) d = ix3 b p d := funext fun a => Fin.ext (by match a with | ⟨0, _⟩ => rfl | ⟨1, _⟩ => rfl | ⟨2, _⟩ => rfl)

/-! ## The stages, read at coordinates -/

/-- A planet's offset from its asteroid on coordinate `d`. -/
theorem offset_apply (x0 : (⟨S32768x128x2, .f32⟩ : BufTy).Contents (Elt Ideal)) (x2 : (⟨S32768x2, .f32⟩ : BufTy).Contents (Elt Ideal)) :
    val_main_v2 (F := Ideal) x0 x2 (ix3 b p d) = x0 (ix3 b p d) - x2 (ix2 b d) := by
  rw [val_main_v2_apply, val_main_v1_apply, val_main_v0_apply, at_ast]
  rfl

/-- One over the square root of the softened squared distance is its reciprocal square root. -/
theorem invdist_apply (x0 : (⟨S32768x128x2, .f32⟩ : BufTy).Contents (Elt Ideal)) (x2 : (⟨S32768x2, .f32⟩ : BufTy).Contents (Elt Ideal)) :
    val_main_v9 (F := Ideal) x0 x2 (ix2 b p)
      = Ideal.rsqrt (dist2 (x0 (ix3 b p 0) - x2 (ix2 b 0)) (x0 (ix3 b p 1) - x2 (ix2 b 1))) := by
  rw [rsqrt_eq_div_sqrt _ (dist2_nonneg _ _)]
  rw [val_main_v9_apply, val_main_v8_apply, val_main_cst_1_apply, val_main_v7_apply, val_main_v6_apply, val_main_v5_apply,
    val_main_cst_0_apply, val_main_v4_apply, val_main_cst_apply, Fin.sum_univ_two]
  simp only [at_coord, val_main_v3_apply, offset_apply, Ideal.hostDivf_def, Ideal.hostUnary_sqrt_def, Ideal.addf_def,
    Ideal.mulf_def, Ideal.ofBits_def, Ideal.ofBits_zero_f32, zero_add]
  rfl

/-- A planet's mass, spread over the asteroids and given a unit last axis. -/
theorem mass_apply (x1 : (⟨S128, .f32⟩ : BufTy).Contents (Elt Ideal)) : val_main_v13 (F := Ideal) x1 (ix3 b p (0 : Fin 1)) = x1 (ix1 p) := by
  rw [val_main_v13_apply, at_mass_pair, val_main_v11_apply, val_main_v10_apply, at_mass]

/-! ## The four features side by side -/

theorem feat0_apply (x0 : (⟨S32768x128x2, .f32⟩ : BufTy).Contents (Elt Ideal)) (x1 : (⟨S128, .f32⟩ : BufTy).Contents (Elt Ideal)) (x2 : (⟨S32768x2, .f32⟩ : BufTy).Contents (Elt Ideal)) :
    val_main_v14 (F := Ideal) x0 x1 x2 (ix3 b p (0 : Fin 4)) = val_main_v2 (F := Ideal) x0 x2 (ix3 b p (0 : Fin 2)) := by
  unfold val_main_v14
  exact concatenate_apply_piece (2 : Fin S32768x128x4.rank) _ _ (ix3 b p (0 : Fin 4)) 0 (by simp) S32768x128x2 _ rfl rfl 0 rfl
    (ix3 b p (0 : Fin 2)) (fun a ha => by match a with | ⟨0, _⟩ => rfl | ⟨1, _⟩ => rfl | ⟨2, _⟩ => exact absurd rfl ha) rfl

theorem feat1_apply (x0 : (⟨S32768x128x2, .f32⟩ : BufTy).Contents (Elt Ideal)) (x1 : (⟨S128, .f32⟩ : BufTy).Contents (Elt Ideal)) (x2 : (⟨S32768x2, .f32⟩ : BufTy).Contents (Elt Ideal)) :
    val_main_v14 (F := Ideal) x0 x1 x2 (ix3 b p (1 : Fin 4)) = val_main_v2 (F := Ideal) x0 x2 (ix3 b p (1 : Fin 2)) := by
  unfold val_main_v14
  exact concatenate_apply_piece (2 : Fin S32768x128x4.rank) _ _ (ix3 b p (1 : Fin 4)) 0 (by simp) S32768x128x2 _ rfl rfl 0 rfl
    (ix3 b p (1 : Fin 2)) (fun a ha => by match a with | ⟨0, _⟩ => rfl | ⟨1, _⟩ => rfl | ⟨2, _⟩ => exact absurd rfl ha) rfl

theorem feat2_apply (x0 : (⟨S32768x128x2, .f32⟩ : BufTy).Contents (Elt Ideal)) (x1 : (⟨S128, .f32⟩ : BufTy).Contents (Elt Ideal)) (x2 : (⟨S32768x2, .f32⟩ : BufTy).Contents (Elt Ideal)) :
    val_main_v14 (F := Ideal) x0 x1 x2 (ix3 b p (2 : Fin 4)) = val_main_v12 (F := Ideal) x0 x2 (ix3 b p (0 : Fin 1)) := by
  unfold val_main_v14
  exact concatenate_apply_piece (2 : Fin S32768x128x4.rank) _ _ (ix3 b p (2 : Fin 4)) 1 (by simp) S32768x128x1 _ rfl rfl 2 rfl
    (ix3 b p (0 : Fin 1)) (fun a ha => by match a with | ⟨0, _⟩ => rfl | ⟨1, _⟩ => rfl | ⟨2, _⟩ => exact absurd rfl ha) rfl

theorem feat3_apply (x0 : (⟨S32768x128x2, .f32⟩ : BufTy).Contents (Elt Ideal)) (x1 : (⟨S128, .f32⟩ : BufTy).Contents (Elt Ideal)) (x2 : (⟨S32768x2, .f32⟩ : BufTy).Contents (Elt Ideal)) :
    val_main_v14 (F := Ideal) x0 x1 x2 (ix3 b p (3 : Fin 4)) = val_main_v13 (F := Ideal) x1 (ix3 b p (0 : Fin 1)) := by
  unfold val_main_v14
  exact concatenate_apply_piece (2 : Fin S32768x128x4.rank) _ _ (ix3 b p (3 : Fin 4)) 2 (by simp) S32768x128x1 _ rfl rfl 3 rfl
    (ix3 b p (0 : Fin 1)) (fun a ha => by match a with | ⟨0, _⟩ => rfl | ⟨1, _⟩ => rfl | ⟨2, _⟩ => exact absurd rfl ha) rfl

/-! ## The two layers and the sum over the planets -/

/-- The first layer, clamped: the specification's `hid`. -/
theorem hidden_apply (x0 : (⟨S32768x128x2, .f32⟩ : BufTy).Contents (Elt Ideal)) (x1 : (⟨S128, .f32⟩ : BufTy).Contents (Elt Ideal)) (x2 : (⟨S32768x2, .f32⟩ : BufTy).Contents (Elt Ideal)) (x3 : (⟨S4x64, .f32⟩ : BufTy).Contents (Elt Ideal)) (x4 : (⟨S64, .f32⟩ : BufTy).Contents (Elt Ideal)) :
    val_main_v19 (F := Ideal) x0 x1 x2 x3 x4 (ix3 b p h)
      = hid (x0 (ix3 b p 0) - x2 (ix2 b 0)) (x0 (ix3 b p 1) - x2 (ix2 b 1)) (x1 (ix1 p)) (fun f h => x3 (ix2 f h))
          (fun h => x4 (ix1 h)) h := by
  rw [val_main_v19_apply, val_main_v18_apply, val_main_v15_apply, Fin.sum_univ_four, val_main_call0_v0_apply,
    val_main_call0_cst_apply, val_main_v17_apply, val_main_v16_apply, at_bias1]
  simp only [at_feat, at_w1, feat0_apply, feat1_apply, feat2_apply, feat3_apply, offset_apply, mass_apply,
    val_main_v12_apply, at_inv, invdist_apply]
  rfl

/-- The second layer, clamped: the specification's `msg`. -/
theorem message_apply (x0 : (⟨S32768x128x2, .f32⟩ : BufTy).Contents (Elt Ideal)) (x1 : (⟨S128, .f32⟩ : BufTy).Contents (Elt Ideal)) (x2 : (⟨S32768x2, .f32⟩ : BufTy).Contents (Elt Ideal)) (x3 : (⟨S4x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v24 (F := Ideal) x0 x1 x2 x3 x4 x5 x6 (ix3 b p k)
      = msg (x0 (ix3 b p 0) - x2 (ix2 b 0)) (x0 (ix3 b p 1) - x2 (ix2 b 1)) (x1 (ix1 p)) (fun f h => x3 (ix2 f h))
          (fun h => x4 (ix1 h)) (fun h k => x5 (ix2 h k)) (fun k => x6 (ix1 k)) k := by
  rw [val_main_v24_apply, val_main_v23_apply, val_main_v20_apply, val_main_call1_v0_apply, val_main_call1_cst_apply,
    val_main_v22_apply, val_main_v21_apply, at_bias2]
  simp only [at_hidden, at_w2, hidden_apply]
  rfl

/-- THE REFERENCE'S RESULT is `G` of the seven arguments. -/
theorem ref_eq (x0 : (⟨S32768x128x2, .f32⟩ : BufTy).Contents (Elt Ideal)) (x1 : (⟨S128, .f32⟩ : BufTy).Contents (Elt Ideal)) (x2 : (⟨S32768x2, .f32⟩ : BufTy).Contents (Elt Ideal)) (x3 : (⟨S4x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v25 (F := Ideal) x0 x1 x2 x3 x4 x5 x6 = G x0 x1 x2 x3 x4 x5 x6 := by
  funext i
  obtain ⟨b, k, rfl⟩ : ∃ (b : Fin 32768) (k : Fin 64), i = ix2 b k := ⟨i 0, i 1, eq_ix2 i⟩
  rw [val_main_v25_apply, val_main_cst_2_apply]
  simp only [at_planets, message_apply, Ideal.ofBits_def, Ideal.ofBits_zero_f32, zero_add]
  rfl

end Cert.Gravity.RefCell

end
-- ==== Proof.lean ====
/- The proof of `Cert.Claim`: the kernel, its idealization and the idealized reference each run to the end and leave their
   arguments unchanged, the idealization rewrote nothing, and the two idealized programs end with equal results.

   The mathematics. For asteroid `b` and channel `k` both programs compute
     Σ_p max ((Σ_h max (dx·W1[0,h] + dy·W1[1,h] + (dx² + dy² + ε)^(-1/2)·W1[2,h] + m_p·W1[3,h] + b1[h]) 0 · W2[h,k]) + b2[k]) 0
   with `(dx, dy)` planet `p`'s offset from asteroid `b`. The kernel does it 128 asteroids at a time, the first layer as
   four broadcast products added in order, the second on the matrix unit after a change to bf16 (the identity on
   extended reals), the reciprocal square root directly; the reference lays the four features side by side and
   contracts them with W1, and divides one by a square root. On the extended reals these agree with no assumption on
   the inputs: sums are reassociated nowhere, a sum from a zero start is the sum, and `1 / sqrt z = rsqrt z` for every
   `z ≥ 0`, which `dx² + dy² + ε` always is (Proof/Spec.lean). So the precondition is not used.

   Proof/Spec.lean states the function; Proof/Relayout.lean and Proof/KernelCell.lean read the kernel body's stored
   value at an index; Proof/KernelValue.lean goes from a grid point's block to the whole result array;
   Proof/RefCell.lean reads the reference stage by stage. -/
import proofs.«165896_j75496935129487_1_alg».proof.Defs
import proofs.«165896_j75496935129487_1_alg».proof.Proof.Gen.Kernel
import proofs.«165896_j75496935129487_1_alg».proof.Proof.Gen.Kernel.Skeleton
import proofs.«165896_j75496935129487_1_alg».proof.Proof.Gen.Kernel.Launch
import proofs.«165896_j75496935129487_1_alg».proof.Proof.Gen.Kernel.Points
import proofs.«165896_j75496935129487_1_alg».proof.Proof.Gen.Kernel.Frame
import proofs.«165896_j75496935129487_1_alg».proof.Proof.Gen.KernelIdeal
import proofs.«165896_j75496935129487_1_alg».proof.Proof.Gen.KernelIdeal.Skeleton
import proofs.«165896_j75496935129487_1_alg».proof.Proof.Gen.KernelIdeal.Launch
import proofs.«165896_j75496935129487_1_alg».proof.Proof.Gen.KernelIdeal.Points
import proofs.«165896_j75496935129487_1_alg».proof.Proof.Gen.KernelIdeal.Frame
import proofs.«165896_j75496935129487_1_alg».proof.Proof.Gen.ReferenceIdeal
import proofs.«165896_j75496935129487_1_alg».proof.Proof.Gen.Pre_finite_inputs
import proofs.«165896_j75496935129487_1_alg».proof.Proof.Gen.KernelIdeal.Value
import proofs.«165896_j75496935129487_1_alg».proof.Proof.Gen.ReferenceIdeal.Run
import proofs.«165896_j75496935129487_1_alg».proof.Proof.Gen.ReferenceIdeal.Read
import proofs.«165896_j75496935129487_1_alg».proof.Proof.KernelValue
import proofs.«165896_j75496935129487_1_alg».proof.Proof.RefCell
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The kernel's result array ends at `G` of its arguments (Proof/KernelValue.lean), the reference's at its last stage
    (the generated run), which is `G` of its arguments (Proof/RefCell.lean); the arguments agree. -/
theorem algebraic : Cert.algebraic_KernelIdeal_ReferenceIdeal := by
  intro m ρ m' ρ' _ hagree
  refine ⟨_, Cert.Gravity.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.Gravity.RefCell.ref_eq]
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
